-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S10000x512 : Shape := ⟨2, ![10000, 512]⟩
abbrev S300000 : Shape := ⟨1, ![300000]⟩
abbrev S512x512 : Shape := ⟨2, ![512, 512]⟩
abbrev S512 : Shape := ⟨1, ![512]⟩
abbrev S50000x1 : Shape := ⟨2, ![50000, 1]⟩
abbrev S10000x1 : Shape := ⟨2, ![10000, 1]⟩
abbrev S300000x1 : Shape := ⟨2, ![300000, 1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S50000x1 : S_.BroadcastsInDim S50000x1 (![] : Fin 0 → Fin S50000x1.rank)
  reducesTo_S50000x1_S_d0_1 : S50000x1.ReducesTo [0, 1] S_
  bcast_S_S10000x1 : S_.BroadcastsInDim S10000x1 (![] : Fin 0 → Fin S10000x1.rank)
  reducesTo_S10000x1_S_d0_1 : S10000x1.ReducesTo [0, 1] S_
  bcast_S_S300000x1 : S_.BroadcastsInDim S300000x1 (![] : Fin 0 → Fin S300000x1.rank)
  reducesTo_S300000x1_S_d0_1 : S300000x1.ReducesTo [0, 1] S_

variable [Facts]

def fn_part3 {F : FTy → Type} [FloatOps F] (main_arg14 : FVec F S10000x1 .f32) (main_v48 : IVec S_ 1) (main_v49 : FVec F S50000x1 .f32) (main_v50 : FVec F S50000x1 .f32) : IVec S_ 1 :=
  let main_v51 : IVec S50000x1 1 := cmpf .olt main_v49 main_v50
  let main_c_19 : IVec S_ 1 := constantI S_ 1 1#1
  let main_v52 : IVec S_ 1 := (fun x v => Host.reduce IntOp.andi x v reducesTo_S50000x1_S_d0_1 h_S_) main_v51 main_c_19
  let main_v53 : IVec S_ 1 := andi main_v48 main_v52
  let main_v54 : FVec F S10000x1 .f32 := Host.absf main_arg14
  let main_cst_20 : FVec F S_ .f32 := constant S_ .f32 0x7F800000#32
  let main_v55 : FVec F S10000x1 .f32 := broadcastInDim S10000x1 ![] bcast_S_S10000x1 main_cst_20
  let main_v56 : IVec S10000x1 1 := cmpf .olt main_v54 main_v55
  let main_c_21 : IVec S_ 1 := constantI S_ 1 1#1
  let main_v57 : IVec S_ 1 := (fun x v => Host.reduce IntOp.andi x v reducesTo_S10000x1_S_d0_1 h_S_) main_v56 main_c_21
  let main_v58 : IVec S_ 1 := andi main_v53 main_v57
  main_v58

def fn_part2 {F : FTy → Type} [FloatOps F] (main_arg10 : FVec F S10000x1 .f32) (main_arg11 : FVec F S300000x1 .f32) (main_arg12 : FVec F S300000x1 .f32) (main_arg13 : FVec F S50000x1 .f32) (main_arg14 : FVec F S10000x1 .f32) (main_v33 : IVec S_ 1) : IVec S_ 1 :=
  let main_v34 : FVec F S10000x1 .f32 := Host.absf main_arg10
  let main_cst_12 : FVec F S_ .f32 := constant S_ .f32 0x7F800000#32
  let main_v35 : FVec F S10000x1 .f32 := broadcastInDim S10000x1 ![] bcast_S_S10000x1 main_cst_12
  let main_v36 : IVec S10000x1 1 := cmpf .olt main_v34 main_v35
  let main_c_13 : IVec S_ 1 := constantI S_ 1 1#1
  let main_v37 : IVec S_ 1 := (fun x v => Host.reduce IntOp.andi x v reducesTo_S10000x1_S_d0_1 h_S_) main_v36 main_c_13
  let main_v38 : IVec S_ 1 := andi main_v33 main_v37
  let main_v39 : FVec F S300000x1 .f32 := Host.absf main_arg11
  let main_cst_14 : FVec F S_ .f32 := constant S_ .f32 0x7F800000#32
  let main_v40 : FVec F S300000x1 .f32 := broadcastInDim S300000x1 ![] bcast_S_S300000x1 main_cst_14
  let main_v41 : IVec S300000x1 1 := cmpf .olt main_v39 main_v40
  let main_c_15 : IVec S_ 1 := constantI S_ 1 1#1
  let main_v42 : IVec S_ 1 := (fun x v => Host.reduce IntOp.andi x v reducesTo_S300000x1_S_d0_1 h_S_) main_v41 main_c_15
  let main_v43 : IVec S_ 1 := andi main_v38 main_v42
  let main_v44 : FVec F S300000x1 .f32 := Host.absf main_arg12
  let main_cst_16 : FVec F S_ .f32 := constant S_ .f32 0x7F800000#32
  let main_v45 : FVec F S300000x1 .f32 := broadcastInDim S300000x1 ![] bcast_S_S300000x1 main_cst_16
  let main_v46 : IVec S300000x1 1 := cmpf .olt main_v44 main_v45
  let main_c_17 : IVec S_ 1 := constantI S_ 1 1#1
  let main_v47 : IVec S_ 1 := (fun x v => Host.reduce IntOp.andi x v reducesTo_S300000x1_S_d0_1 h_S_) main_v46 main_c_17
  let main_v48 : IVec S_ 1 := andi main_v43 main_v47
  let main_v49 : FVec F S50000x1 .f32 := Host.absf main_arg13
  let main_cst_18 : FVec F S_ .f32 := constant S_ .f32 0x7F800000#32
  let main_v50 : FVec F S50000x1 .f32 := broadcastInDim S50000x1 ![] bcast_S_S50000x1 main_cst_18
  fn_part3 (F := F) main_arg14 main_v48 main_v49 main_v50

def fn_part1 {F : FTy → Type} [FloatOps F] (main_arg7 : FVec F S512 .f32) (main_arg8 : FVec F S512 .f32) (main_arg9 : FVec F S50000x1 .f32) (main_arg10 : FVec F S10000x1 .f32) (main_arg11 : FVec F S300000x1 .f32) (main_arg12 : FVec F S300000x1 .f32) (main_arg13 : FVec F S50000x1 .f32) (main_arg14 : FVec F S10000x1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg7
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg8
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S50000x1 .f32 := Host.absf main_arg9
  let main_cst_10 : FVec F S_ .f32 := constant S_ .f32 0x7F800000#32
  let main_v30 : FVec F S50000x1 .f32 := broadcastInDim S50000x1 ![] bcast_S_S50000x1 main_cst_10
  let main_v31 : IVec S50000x1 1 := cmpf .olt main_v29 main_v30
  let main_c_11 : IVec S_ 1 := constantI S_ 1 1#1
  let main_v32 : IVec S_ 1 := (fun x v => Host.reduce IntOp.andi x v reducesTo_S50000x1_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S50000x512 .f32) (main_arg1 : FVec F S10000x512 .f32) (main_arg2 : IVec S300000 32) (main_arg3 : IVec S300000 32) (main_arg4 : IVec S300000 32) (main_arg5 : FVec F S512x512 .f32) (main_arg6 : FVec F S512x512 .f32) (main_arg7 : FVec F S512 .f32) (main_arg8 : FVec F S512 .f32) (main_arg9 : FVec F S50000x1 .f32) (main_arg10 : FVec F S10000x1 .f32) (main_arg11 : FVec F S300000x1 .f32) (main_arg12 : FVec F S300000x1 .f32) (main_arg13 : FVec F S50000x1 .f32) (main_arg14 : FVec F S10000x1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_v9 : FVec F S512x512 .f32 := Host.absf main_arg5
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg6
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg7 main_arg8 main_arg9 main_arg10 main_arg11 main_arg12 main_arg13 main_arg14 main_v13 main_v16
-- ==== Kernel.lean ====
abbrev S50000x512 : Shape := ⟨2, ![50000, 512]⟩
abbrev S10000x512 : Shape := ⟨2, ![10000, 512]⟩
abbrev S300000 : Shape := ⟨1, ![300000]⟩
abbrev S512x512 : Shape := ⟨2, ![512, 512]⟩
abbrev S512 : Shape := ⟨1, ![512]⟩
abbrev S50000x1 : Shape := ⟨2, ![50000, 1]⟩
abbrev S10000x1 : Shape := ⟨2, ![10000, 1]⟩
abbrev S300000x1 : Shape := ⟨2, ![300000, 1]⟩
abbrev S2000x512 : Shape := ⟨2, ![2000, 512]⟩
abbrev S2000x1 : Shape := ⟨2, ![2000, 1]⟩
abbrev S1x512 : Shape := ⟨2, ![1, 512]⟩
abbrev S_ : Shape := ⟨0, ![]⟩
abbrev S300000x512 : Shape := ⟨2, ![300000, 512]⟩

abbrev nBuf : Space → Nat
  | .hbm => 72
  | .vmem => 18
  | .smem => 0
  | _ => 0

abbrev bufTy : (tb : Table) → Fin (tcTables nBuf tb) → BufTy
  | .hbm, ⟨0, _⟩ => ⟨S50000x512, .f32⟩
  | .hbm, ⟨1, _⟩ => ⟨S10000x512, .f32⟩
  | .hbm, ⟨2, _⟩ => ⟨S300000, .i32⟩
  | .hbm, ⟨3, _⟩ => ⟨S300000, .i32⟩
  | .hbm, ⟨4, _⟩ => ⟨S300000, .i32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S50000x1, .f32⟩
  | .hbm, ⟨10, _⟩ => ⟨S10000x1, .f32⟩
  | .hbm, ⟨11, _⟩ => ⟨S300000x1, .f32⟩
  | .hbm, ⟨12, _⟩ => ⟨S300000x1, .f32⟩
  | .hbm, ⟨13, _⟩ => ⟨S50000x1, .f32⟩
  | .hbm, ⟨14, _⟩ => ⟨S10000x1, .f32⟩
  | .hbm, ⟨15, _⟩ => ⟨S50000x512, .f32⟩
  | .hbm, ⟨16, _⟩ => ⟨S50000x512, .f32⟩
  | .hbm, ⟨17, _⟩ => ⟨S_, .i32⟩
  | .hbm, ⟨18, _⟩ => ⟨S300000, .i32⟩
  | .hbm, ⟨19, _⟩ => ⟨S300000, .i1⟩
  | .hbm, ⟨20, _⟩ => ⟨S_, .i32⟩
  | .hbm, ⟨21, _⟩ => ⟨S300000, .i32⟩
  | .hbm, ⟨22, _⟩ => ⟨S300000, .i32⟩
  | .hbm, ⟨23, _⟩ => ⟨S300000, .i32⟩
  | .hbm, ⟨24, _⟩ => ⟨S300000x1, .i32⟩
  | .hbm, ⟨25, _⟩ => ⟨S300000x512, .f32⟩
  | .hbm, ⟨26, _⟩ => ⟨S_, .i32⟩
  | .hbm, ⟨27, _⟩ => ⟨S300000, .i32⟩
  | .hbm, ⟨28, _⟩ => ⟨S300000, .i1⟩
  | .hbm, ⟨29, _⟩ => ⟨S_, .i32⟩
  | .hbm, ⟨30, _⟩ => ⟨S300000, .i32⟩
  | .hbm, ⟨31, _⟩ => ⟨S300000, .i32⟩
  | .hbm, ⟨32, _⟩ => ⟨S300000, .i32⟩
  | .hbm, ⟨33, _⟩ => ⟨S300000x1, .i32⟩
  | .hbm, ⟨34, _⟩ => ⟨S300000x1, .f32⟩
  | .hbm, ⟨35, _⟩ => ⟨S300000x512, .f32⟩
  | .hbm, ⟨36, _⟩ => ⟨S300000x512, .f32⟩
  | .hbm, ⟨37, _⟩ => ⟨S_, .f32⟩
  | .hbm, ⟨38, _⟩ => ⟨S10000x512, .f32⟩
  | .hbm, ⟨39, _⟩ => ⟨S300000x1, .i32⟩
  | .hbm, ⟨40, _⟩ => ⟨S10000x512, .f32⟩
  | .hbm, ⟨41, _⟩ => ⟨S10000x512, .f32⟩
  | .hbm, ⟨42, _⟩ => ⟨S10000x512, .f32⟩
  | .hbm, ⟨43, _⟩ => ⟨S10000x512, .f32⟩
  | .hbm, ⟨44, _⟩ => ⟨S10000x512, .f32⟩
  | .hbm, ⟨45, _⟩ => ⟨S_, .i32⟩
  | .hbm, ⟨46, _⟩ => ⟨S300000, .i32⟩
  | .hbm, ⟨47, _⟩ => ⟨S300000, .i1⟩
  | .hbm, ⟨48, _⟩ => ⟨S_, .i32⟩
  | .hbm, ⟨49, _⟩ => ⟨S300000, .i32⟩
  | .hbm, ⟨50, _⟩ => ⟨S300000, .i32⟩
  | .hbm, ⟨51, _⟩ => ⟨S300000, .i32⟩
  | .hbm, ⟨52, _⟩ => ⟨S300000x1, .i32⟩
  | .hbm, ⟨53, _⟩ => ⟨S300000x512, .f32⟩
  | .hbm, ⟨54, _⟩ => ⟨S_, .i32⟩
  | .hbm, ⟨55, _⟩ => ⟨S300000, .i32⟩
  | .hbm, ⟨56, _⟩ => ⟨S300000, .i1⟩
  | .hbm, ⟨57, _⟩ => ⟨S_, .i32⟩
  | .hbm, ⟨58, _⟩ => ⟨S300000, .i32⟩
  | .hbm, ⟨59, _⟩ => ⟨S300000, .i32⟩
  | .hbm, ⟨60, _⟩ => ⟨S300000, .i32⟩
  | .hbm, ⟨61, _⟩ => ⟨S300000x1, .i32⟩
  | .hbm, ⟨62, _⟩ => ⟨S300000x1, .f32⟩
  | .hbm, ⟨63, _⟩ => ⟨S300000x512, .f32⟩
  | .hbm, ⟨64, _⟩ => ⟨S300000x512, .f32⟩
  | .hbm, ⟨65, _⟩ => ⟨S_, .f32⟩
  | .hbm, ⟨66, _⟩ => ⟨S50000x512, .f32⟩
  | .hbm, ⟨67, _⟩ => ⟨S300000x1, .i32⟩
  | .hbm, ⟨68, _⟩ => ⟨S50000x512, .f32⟩
  | .hbm, ⟨69, _⟩ => ⟨S50000x512, .f32⟩
  | .hbm, ⟨70, _⟩ => ⟨S50000x512, .f32⟩
  | .hbm, ⟨71, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S512, .f32⟩
  | .local _ .vmem, ⟨4, _⟩ => ⟨S2000x1, .f32⟩
  | .local _ .vmem, ⟨5, _⟩ => ⟨S2000x1, .f32⟩
  | .local _ .vmem, ⟨6, _⟩ => ⟨S2000x512, .f32⟩
  | .local _ .vmem, ⟨7, _⟩ => ⟨S2000x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S512x512, .f32⟩
  | .local _ .vmem, ⟨13, _⟩ => ⟨S512, .f32⟩
  | .local _ .vmem, ⟨14, _⟩ => ⟨S2000x1, .f32⟩
  | .local _ .vmem, ⟨15, _⟩ => ⟨S2000x1, .f32⟩
  | .local _ .vmem, ⟨16, _⟩ => ⟨S2000x512, .f32⟩
  | .local _ .vmem, ⟨17, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_3 : Ref sig .tc := ⟨.hbm, 45, rfl⟩
abbrev main_v24 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S2000x1_S2000x1_0_0 : ∀ a, (![0, 0] : Fin 2 → Nat) a + S2000x1.size a ≤ S2000x1.size a
  h_S2000x1 : 0 < S2000x1.numel
  broadcasts_S2000x1_S2000x512 : S2000x1.Broadcasts S2000x512
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x512_0_1 : S300000x1.BroadcastsInDim S300000x512 (![0, 1] : Fin 2 → Fin S300000x512.rank)
  bcast_S_S10000x512 : S_.BroadcastsInDim S10000x512 (![] : Fin 0 → Fin S10000x512.rank)
  bcast_S10000x1_S10000x512_0_1 : S10000x1.BroadcastsInDim S10000x512 (![0, 1] : Fin 2 → Fin S10000x512.rank)
  shapeCasts_S2000x512_S2000x512 : S2000x512.ShapeCasts S2000x512
  bcast_S_S50000x512 : S_.BroadcastsInDim S50000x512 (![] : Fin 0 → Fin S50000x512.rank)
  bcast_S50000x1_S50000x512_0_1 : S50000x1.BroadcastsInDim S50000x512 (![0, 1] : Fin 2 → Fin S50000x512.rank)
  dot_S2000x512_S512x512_S2000x512_1_0_0_1_n_n_wf : DotDims.WF S2000x512 S512x512 S2000x512 [1] [0] [0] [1] [] []
  gather_S50000x512_S300000x1_S300000x512_1_0_n_n_0_1_1512_wf : GatherDims.WF S50000x512 S300000x1 S300000x512 [1] [0] [] [0] [] 1 ![1, 512]
  gather_S300000x1_S300000x1_S300000x1_1_0_n_n_0_1_11_wf : GatherDims.WF S300000x1 S300000x1 S300000x1 [1] [0] [] [0] [] 1 ![1, 1]
  scatter_S10000x512_S300000x1_S300000x512_1_0_0_1_wf : ScatterDims.WF S10000x512 S300000x1 S300000x512 [1] [0] [0] 1
  gather_S10000x512_S300000x1_S300000x512_1_0_n_n_0_1_1512_wf : GatherDims.WF S10000x512 S300000x1 S300000x512 [1] [0] [] [0] [] 1 ![1, 512]
  scatter_S50000x512_S300000x1_S300000x512_1_0_0_1_wf : ScatterDims.WF S50000x512 S300000x1 S300000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S50000x512.size a
  hwx0_4 : ∀ i : grid0.Coords, EltTy.bits .f32 = 32 ∨ (Rect.block (s := S50000x512) S2000x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S50000x512.size a
  hwx0_5 : ∀ i : grid0.Coords, EltTy.bits .f32 = 32 ∨ (Rect.block (s := S50000x512) S2000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S10000x512.size a
  hwx1_0 : ∀ i : grid1.Coords, EltTy.bits .f32 = 32 ∨ (Rect.block (s := S10000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S10000x1.size a
  hwx1_3 : ∀ i : grid1.Coords, EltTy.bits .f32 = 32 ∨ (Rect.block (s := S10000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S10000x512.size a
  hwx1_4 : ∀ i : grid1.Coords, EltTy.bits .f32 = 32 ∨ (Rect.block (s := S10000x512) S2000x512.size (cc1_transform_4 i) (hinb1_4 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S50000x512_S300000x1_S300000x512_1_0_n_n_0_1_1512 : GatherDims S50000x512 S300000x1 S300000x512 where
  offsetDims := [1]
  collapsedSliceDims := [0]
  operandBatchingDims := []
  startIndicesBatchingDims := []
  startIndexMap := [0]
  indexVectorDim := 1
  sliceSizes := ![1, 512]
  wf := gather_S50000x512_S300000x1_S300000x512_1_0_n_n_0_1_1512_wf
def gather_S300000x1_S300000x1_S300000x1_1_0_n_n_0_1_11 : GatherDims S300000x1 S300000x1 S300000x1 where
  offsetDims := [1]
  collapsedSliceDims := [0]
  operandBatchingDims := []
  startIndicesBatchingDims := []
  startIndexMap := [0]
  indexVectorDim := 1
  sliceSizes := ![1, 1]
  wf := gather_S300000x1_S300000x1_S300000x1_1_0_n_n_0_1_11_wf
def scatter_S10000x512_S300000x1_S300000x512_1_0_0_1 : ScatterDims S10000x512 S300000x1 S300000x512 where
  updateWindowDims := [1]
  insertedWindowDims := [0]
  scatterDimsToOperandDims := [0]
  indexVectorDim := 1
  wf := scatter_S10000x512_S300000x1_S300000x512_1_0_0_1_wf
def gather_S10000x512_S300000x1_S300000x512_1_0_n_n_0_1_1512 : GatherDims S10000x512 S300000x1 S300000x512 where
  offsetDims := [1]
  collapsedSliceDims := [0]
  operandBatchingDims := []
  startIndicesBatchingDims := []
  startIndexMap := [0]
  indexVectorDim := 1
  sliceSizes := ![1, 512]
  wf := gather_S10000x512_S300000x1_S300000x512_1_0_n_n_0_1_1512_wf
def scatter_S50000x512_S300000x1_S300000x512_1_0_0_1 : ScatterDims S50000x512 S300000x1 S300000x512 where
  updateWindowDims := [1]
  insertedWindowDims := [0]
  scatterDimsToOperandDims := [0]
  indexVectorDim := 1
  wf := scatter_S50000x512_S300000x1_S300000x512_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2000x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S2000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x512 : Shape := ⟨2, ![50000, 512]⟩
abbrev S10000x512 : Shape := ⟨2, ![10000, 512]⟩
abbrev S300000 : Shape := ⟨1, ![300000]⟩
abbrev S512x512 : Shape := ⟨2, ![512, 512]⟩
abbrev S512 : Shape := ⟨1, ![512]⟩
abbrev S50000x1 : Shape := ⟨2, ![50000, 1]⟩
abbrev S10000x1 : Shape := ⟨2, ![10000, 1]⟩
abbrev S300000x1 : Shape := ⟨2, ![300000, 1]⟩
abbrev S1x512 : Shape := ⟨2, ![1, 512]⟩
abbrev S_ : Shape := ⟨0, ![]⟩
abbrev S300000x512 : Shape := ⟨2, ![300000, 512]⟩

abbrev nBuf : Space → Nat
  | .hbm => 89
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S10000x512, .f32⟩
  | .hbm, ⟨2, _⟩ => ⟨S300000, .i32⟩
  | .hbm, ⟨3, _⟩ => ⟨S300000, .i32⟩
  | .hbm, ⟨4, _⟩ => ⟨S300000, .i32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S50000x1, .f32⟩
  | .hbm, ⟨10, _⟩ => ⟨S10000x1, .f32⟩
  | .hbm, ⟨11, _⟩ => ⟨S300000x1, .f32⟩
  | .hbm, ⟨12, _⟩ => ⟨S300000x1, .f32⟩
  | .hbm, ⟨13, _⟩ => ⟨S50000x1, .f32⟩
  | .hbm, ⟨14, _⟩ => ⟨S10000x1, .f32⟩
  | .hbm, ⟨15, _⟩ => ⟨S50000x512, .f32⟩
  | .hbm, ⟨16, _⟩ => ⟨S1x512, .f32⟩
  | .hbm, ⟨17, _⟩ => ⟨S50000x512, .f32⟩
  | .hbm, ⟨18, _⟩ => ⟨S50000x512, .f32⟩
  | .hbm, ⟨19, _⟩ => ⟨S_, .f32⟩
  | .hbm, ⟨20, _⟩ => ⟨S50000x512, .f32⟩
  | .hbm, ⟨21, _⟩ => ⟨S50000x512, .f32⟩
  | .hbm, ⟨22, _⟩ => ⟨S50000x512, .f32⟩
  | .hbm, ⟨23, _⟩ => ⟨S50000x512, .f32⟩
  | .hbm, ⟨24, _⟩ => ⟨S50000x512, .f32⟩
  | .hbm, ⟨25, _⟩ => ⟨S50000x512, .f32⟩
  | .hbm, ⟨26, _⟩ => ⟨S_, .i32⟩
  | .hbm, ⟨27, _⟩ => ⟨S300000, .i32⟩
  | .hbm, ⟨28, _⟩ => ⟨S300000, .i1⟩
  | .hbm, ⟨29, _⟩ => ⟨S_, .i32⟩
  | .hbm, ⟨30, _⟩ => ⟨S300000, .i32⟩
  | .hbm, ⟨31, _⟩ => ⟨S300000, .i32⟩
  | .hbm, ⟨32, _⟩ => ⟨S300000, .i32⟩
  | .hbm, ⟨33, _⟩ => ⟨S300000x1, .i32⟩
  | .hbm, ⟨34, _⟩ => ⟨S300000x512, .f32⟩
  | .hbm, ⟨35, _⟩ => ⟨S_, .i32⟩
  | .hbm, ⟨36, _⟩ => ⟨S300000, .i32⟩
  | .hbm, ⟨37, _⟩ => ⟨S300000, .i1⟩
  | .hbm, ⟨38, _⟩ => ⟨S_, .i32⟩
  | .hbm, ⟨39, _⟩ => ⟨S300000, .i32⟩
  | .hbm, ⟨40, _⟩ => ⟨S300000, .i32⟩
  | .hbm, ⟨41, _⟩ => ⟨S300000, .i32⟩
  | .hbm, ⟨42, _⟩ => ⟨S300000x1, .i32⟩
  | .hbm, ⟨43, _⟩ => ⟨S300000x1, .f32⟩
  | .hbm, ⟨44, _⟩ => ⟨S300000x512, .f32⟩
  | .hbm, ⟨45, _⟩ => ⟨S300000x512, .f32⟩
  | .hbm, ⟨46, _⟩ => ⟨S_, .f32⟩
  | .hbm, ⟨47, _⟩ => ⟨S10000x512, .f32⟩
  | .hbm, ⟨48, _⟩ => ⟨S300000x1, .i32⟩
  | .hbm, ⟨49, _⟩ => ⟨S10000x512, .f32⟩
  | .hbm, ⟨50, _⟩ => ⟨S10000x512, .f32⟩
  | .hbm, ⟨51, _⟩ => ⟨S10000x512, .f32⟩
  | .hbm, ⟨52, _⟩ => ⟨S10000x512, .f32⟩
  | .hbm, ⟨53, _⟩ => ⟨S10000x512, .f32⟩
  | .hbm, ⟨54, _⟩ => ⟨S1x512, .f32⟩
  | .hbm, ⟨55, _⟩ => ⟨S10000x512, .f32⟩
  | .hbm, ⟨56, _⟩ => ⟨S10000x512, .f32⟩
  | .hbm, ⟨57, _⟩ => ⟨S_, .f32⟩
  | .hbm, ⟨58, _⟩ => ⟨S10000x512, .f32⟩
  | .hbm, ⟨59, _⟩ => ⟨S10000x512, .f32⟩
  | .hbm, ⟨60, _⟩ => ⟨S10000x512, .f32⟩
  | .hbm, ⟨61, _⟩ => ⟨S10000x512, .f32⟩
  | .hbm, ⟨62, _⟩ => ⟨S_, .i32⟩
  | .hbm, ⟨63, _⟩ => ⟨S300000, .i32⟩
  | .hbm, ⟨64, _⟩ => ⟨S300000, .i1⟩
  | .hbm, ⟨65, _⟩ => ⟨S_, .i32⟩
  | .hbm, ⟨66, _⟩ => ⟨S300000, .i32⟩
  | .hbm, ⟨67, _⟩ => ⟨S300000, .i32⟩
  | .hbm, ⟨68, _⟩ => ⟨S300000, .i32⟩
  | .hbm, ⟨69, _⟩ => ⟨S300000x1, .i32⟩
  | .hbm, ⟨70, _⟩ => ⟨S300000x512, .f32⟩
  | .hbm, ⟨71, _⟩ => ⟨S_, .i32⟩
  | .hbm, ⟨72, _⟩ => ⟨S300000, .i32⟩
  | .hbm, ⟨73, _⟩ => ⟨S300000, .i1⟩
  | .hbm, ⟨74, _⟩ => ⟨S_, .i32⟩
  | .hbm, ⟨75, _⟩ => ⟨S300000, .i32⟩
  | .hbm, ⟨76, _⟩ => ⟨S300000, .i32⟩
  | .hbm, ⟨77, _⟩ => ⟨S300000, .i32⟩
  | .hbm, ⟨78, _⟩ => ⟨S300000x1, .i32⟩
  | .hbm, ⟨79, _⟩ => ⟨S300000x1, .f32⟩
  | .hbm, ⟨80, _⟩ => ⟨S300000x512, .f32⟩
  | .hbm, ⟨81, _⟩ => ⟨S300000x512, .f32⟩
  | .hbm, ⟨82, _⟩ => ⟨S_, .f32⟩
  | .hbm, ⟨83, _⟩ => ⟨S50000x512, .f32⟩
  | .hbm, ⟨84, _⟩ => ⟨S300000x1, .i32⟩
  | .hbm, ⟨85, _⟩ => ⟨S50000x512, .f32⟩
  | .hbm, ⟨86, _⟩ => ⟨S50000x512, .f32⟩
  | .hbm, ⟨87, _⟩ => ⟨S50000x512, .f32⟩
  | .hbm, ⟨88, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_cst : Ref sig .tc := ⟨.hbm, 57, rfl⟩
abbrev main_call1_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_3 : Ref sig .tc := ⟨.hbm, 62, rfl⟩
abbrev main_v38 : Ref sig .tc := ⟨.hbm, 63, rfl⟩
abbrev main_v39 : Ref sig .tc := ⟨.hbm, 64, rfl⟩
abbrev main_c_4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_5 : Ref sig .tc := ⟨.hbm, 71, rfl⟩
abbrev main_v45 : Ref sig .tc := ⟨.hbm, 72, rfl⟩
abbrev main_v46 : Ref sig .tc := ⟨.hbm, 73, rfl⟩
abbrev main_c_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_7 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S50000x1_S50000x512_0_1 : S50000x1.BroadcastsInDim S50000x512 (![0, 1] : Fin 2 → Fin S50000x512.rank)
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x512_0_1 : S300000x1.BroadcastsInDim S300000x512 (![0, 1] : Fin 2 → Fin S300000x512.rank)
  bcast_S_S10000x512 : S_.BroadcastsInDim S10000x512 (![] : Fin 0 → Fin S10000x512.rank)
  bcast_S10000x1_S10000x512_0_1 : S10000x1.BroadcastsInDim S10000x512 (![0, 1] : Fin 2 → Fin S10000x512.rank)
  bcast_S1x512_S10000x512_0_1 : S1x512.BroadcastsInDim S10000x512 (![0, 1] : Fin 2 → Fin S10000x512.rank)
  dot_S50000x512_S512x512_S50000x512_1_0_0_1_n_n_wf : DotDims.WF S50000x512 S512x512 S50000x512 [1] [0] [0] [1] [] []
  gather_S50000x512_S300000x1_S300000x512_1_0_n_n_0_1_1512_wf : GatherDims.WF S50000x512 S300000x1 S300000x512 [1] [0] [] [0] [] 1 ![1, 512]
  gather_S300000x1_S300000x1_S300000x1_1_0_n_n_0_1_11_wf : GatherDims.WF S300000x1 S300000x1 S300000x1 [1] [0] [] [0] [] 1 ![1, 1]
  scatter_S10000x512_S300000x1_S300000x512_1_0_0_1_wf : ScatterDims.WF S10000x512 S300000x1 S300000x512 [1] [0] [0] 1
  dot_S10000x512_S512x512_S10000x512_1_0_0_1_n_n_wf : DotDims.WF S10000x512 S512x512 S10000x512 [1] [0] [0] [1] [] []
  gather_S10000x512_S300000x1_S300000x512_1_0_n_n_0_1_1512_wf : GatherDims.WF S10000x512 S300000x1 S300000x512 [1] [0] [] [0] [] 1 ![1, 512]
  scatter_S50000x512_S300000x1_S300000x512_1_0_0_1_wf : ScatterDims.WF S50000x512 S300000x1 S300000x512 [1] [0] [0] 1

variable [Facts₀]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S50000x512_S300000x1_S300000x512_1_0_n_n_0_1_1512 : GatherDims S50000x512 S300000x1 S300000x512 where
  offsetDims := [1]
  collapsedSliceDims := [0]
  operandBatchingDims := []
  startIndicesBatchingDims := []
  startIndexMap := [0]
  indexVectorDim := 1
  sliceSizes := ![1, 512]
  wf := gather_S50000x512_S300000x1_S300000x512_1_0_n_n_0_1_1512_wf
def gather_S300000x1_S300000x1_S300000x1_1_0_n_n_0_1_11 : GatherDims S300000x1 S300000x1 S300000x1 where
  offsetDims := [1]
  collapsedSliceDims := [0]
  operandBatchingDims := []
  startIndicesBatchingDims := []
  startIndexMap := [0]
  indexVectorDim := 1
  sliceSizes := ![1, 1]
  wf := gather_S300000x1_S300000x1_S300000x1_1_0_n_n_0_1_11_wf
def scatter_S10000x512_S300000x1_S300000x512_1_0_0_1 : ScatterDims S10000x512 S300000x1 S300000x512 where
  updateWindowDims := [1]
  insertedWindowDims := [0]
  scatterDimsToOperandDims := [0]
  indexVectorDim := 1
  wf := scatter_S10000x512_S300000x1_S300000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x512_S300000x1_S300000x512_1_0_n_n_0_1_1512 : GatherDims S10000x512 S300000x1 S300000x512 where
  offsetDims := [1]
  collapsedSliceDims := [0]
  operandBatchingDims := []
  startIndicesBatchingDims := []
  startIndexMap := [0]
  indexVectorDim := 1
  sliceSizes := ![1, 512]
  wf := gather_S10000x512_S300000x1_S300000x512_1_0_n_n_0_1_1512_wf
def scatter_S50000x512_S300000x1_S300000x512_1_0_0_1 : ScatterDims S50000x512 S300000x1 S300000x512 where
  updateWindowDims := [1]
  insertedWindowDims := [0]
  scatterDimsToOperandDims := [0]
  indexVectorDim := 1
  wf := scatter_S50000x512_S300000x1_S300000x512_1_0_0_1_wf

class Facts : Prop extends Facts₀ where

variable [Facts]
-- ==== Proof.Chains.lean ====
/-
  The two stretches of host operations that the kernel's program and the reference share, each as ONE function of
  the arrays it reads. Both programs gather rows of a message array by an index vector (a negative index counted from
  the end, as jnp does), weigh each gathered row by a gathered per-incidence weight, add the rows into segments
  (a scatter-add into zeros), add the result to a state array and divide by a per-row normaliser:

    edges   e' = (e + segsum_game (msgV[player] · w_v[idx])) / e_reg_sum          (`edgeUpdate`)
    vertices v' = (v·v_weight + segsum_player (msgE[game] · w_e[idx])) / v_reg_sum   (`vertexUpdate`)

  The bridge never opens either function: the two programs feed them equal arrays.
-/
import proofs.«172283_j89988154785842_1_alg».proof.ReferenceIdeal
import proofs.«172283_j89988154785842_1_alg».proof.Proof.Gen.ReferenceIdeal

noncomputable section

namespace Cert.Shared

open Cert.ReferenceIdeal Cert.ReferenceIdeal.Gen Idealize.ShloMosaic Idealize.ShloMosaic.TcCoe

variable {F : FTy → Type} [FloatOps F]

/-- The edge update: from the vertex messages `ve` [50000, 512], the edge state `a1`, the incidence lists `a2` (vertex of
    each incidence), `a3` (edge of each incidence), `a4` (position of its weight), the weights `a11` and the
    normaliser `a14`: gather `ve` at `a2`, scale by `a11` at `a4`, sum into the edges `a3`, add `a1`, divide by `a14`. -/
def edgeUpdate (ve : (⟨S50000x512, .f32⟩ : BufTy).Contents (Elt F)) (a1 : (⟨S10000x512, .f32⟩ : BufTy).Contents (Elt F))
    (a2 a3 a4 : (⟨S300000, .i32⟩ : BufTy).Contents (Elt F)) (a11 : (⟨S300000x1, .f32⟩ : BufTy).Contents (Elt F))
    (a14 : (⟨S10000x1, .f32⟩ : BufTy).Contents (Elt F)) : (⟨S10000x512, .f32⟩ : BufTy).Contents (Elt F) :=
  Host.divf (addf a1 (Host.scatterAdd scatter_S10000x512_S300000x1_S300000x512_1_0_0_1 (broadcastInDim S10000x512 ![] bcast_S_S10000x512 (constant S_ .f32 0x00000000#32)) (broadcastInDim S300000x1 ![0] bcast_S300000_S300000x1_0 a3) (mulf (Host.gather gather_S50000x512_S300000x1_S300000x512_1_0_n_n_0_1_1512 ve (broadcastInDim S300000x1 ![0] bcast_S300000_S300000x1_0 (select (cmpi .slt a2 (broadcastInDim S300000 ![] bcast_S_S300000 (constantI S_ 32 0#32))) (addi a2 (broadcastInDim S300000 ![] bcast_S_S300000 (constantI S_ 32 50000#32))) a2))) (broadcastInDim S300000x512 ![0, 1] bcast_S300000x1_S300000x512_0_1 (Host.gather gather_S300000x1_S300000x1_S300000x1_1_0_n_n_0_1_11 a11 (broadcastInDim S300000x1 ![0] bcast_S300000_S300000x1_0 (select (cmpi .slt a4 (broadcastInDim S300000 ![] bcast_S_S300000 (constantI S_ 32 0#32))) (addi a4 (broadcastInDim S300000 ![] bcast_S_S300000 (constantI S_ 32 300000#32))) a4))))))) (broadcastInDim S10000x512 ![0, 1] bcast_S10000x1_S10000x512_0_1 a14)

/-- The vertex update: from the scaled vertex state `v0` [50000, 512], the edge messages `ev` [10000, 512], the same
    incidence lists, the weights `a12` and the normaliser `a13`: gather `ev` at `a3`, scale by `a12` at `a4`, sum into
    the vertices `a2`, add `v0`, divide by `a13`. -/
def vertexUpdate (v0 : (⟨S50000x512, .f32⟩ : BufTy).Contents (Elt F)) (ev : (⟨S10000x512, .f32⟩ : BufTy).Contents (Elt F))
    (a2 a3 a4 : (⟨S300000, .i32⟩ : BufTy).Contents (Elt F)) (a12 : (⟨S300000x1, .f32⟩ : BufTy).Contents (Elt F))
    (a13 : (⟨S50000x1, .f32⟩ : BufTy).Contents (Elt F)) : (⟨S50000x512, .f32⟩ : BufTy).Contents (Elt F) :=
  Host.divf (addf v0 (Host.scatterAdd scatter_S50000x512_S300000x1_S300000x512_1_0_0_1 (broadcastInDim S50000x512 ![] bcast_S_S50000x512 (constant S_ .f32 0x00000000#32)) (broadcastInDim S300000x1 ![0] bcast_S300000_S300000x1_0 a2) (mulf (Host.gather gather_S10000x512_S300000x1_S300000x512_1_0_n_n_0_1_1512 ev (broadcastInDim S300000x1 ![0] bcast_S300000_S300000x1_0 (select (cmpi .slt a3 (broadcastInDim S300000 ![] bcast_S_S300000 (constantI S_ 32 0#32))) (addi a3 (broadcastInDim S300000 ![] bcast_S_S300000 (constantI S_ 32 10000#32))) a3))) (broadcastInDim S300000x512 ![0, 1] bcast_S300000x1_S300000x512_0_1 (Host.gather gather_S300000x1_S300000x1_S300000x1_1_0_n_n_0_1_11 a12 (broadcastInDim S300000x1 ![0] bcast_S300000_S300000x1_0 (select (cmpi .slt a4 (broadcastInDim S300000 ![] bcast_S_S300000 (constantI S_ 32 0#32))) (addi a4 (broadcastInDim S300000 ![] bcast_S_S300000 (constantI S_ 32 300000#32))) a4))))))) (broadcastInDim S50000x512 ![0, 1] bcast_S50000x1_S50000x512_0_1 a13)

end Cert.Shared

end
-- ==== Proof.HostChains.lean ====
/-
  The last boundary's contents at the two result arrays, read back through the two stretches of host operations.

  @main runs region 0, a stretch of host operations, region 1, a second stretch. The edge result is the first stretch's
  last value; region 1 reads it through an input window and the second stretch does not write it, so it ends as the
  first stretch left it: the edge update of region 0's second output (its write-backs folded) and the launch contents of
  six arguments. The vertex result is the second stretch's last value: the vertex update of region 0's first output,
  region 1's output, and the launch contents of five arguments. Each stretch is read as ONE function of the arrays it
  reads; the functions are the ones the reference's program is read by.
-/
import proofs.«172283_j89988154785842_1_alg».proof.Proof.Gen.KernelIdeal.Frame
import proofs.«172283_j89988154785842_1_alg».proof.Proof.Chains
import Idealize.ShloMosaic.Lib.StableHlo.Run

set_option maxRecDepth 16384

noncomputable section

namespace Cert.KernelIdeal.HostChains

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]

variable (m : (ℓ : Loc nD τ sig) → Buf (Elt F) ℓ) (ρ : Dev nD → PrngReg)

/-! ## The two stretches as functions of the arrays they read, from ANY contents -/

set_option maxHeartbeats 4000000 in
/-- The first stretch's last value, from any contents `V`: the edge update of what `V` holds at region 0's second
    output and at six arguments. Each operation's value is read at its own result and every other buffer is left;
    the composed term is the edge update's body, the kernel's dimension records being the reference's. -/
theorem ops1_result (V : Valuation τ sig (Elt F)) : StableHlo.after hostOps1 V (Proc.devRef .tc main_v22)
    = Cert.Shared.edgeUpdate (V (Proc.devRef .tc main_v0_1)) (V (Proc.devRef .tc main_arg1)) (V (Proc.devRef .tc main_arg2))
        (V (Proc.devRef .tc main_arg3)) (V (Proc.devRef .tc main_arg4)) (V (Proc.devRef .tc main_arg11)) (V (Proc.devRef .tc main_arg14)) := by
  after_results_simp
  unfold Cert.Shared.edgeUpdate
  rfl

set_option maxHeartbeats 4000000 in
/-- The second stretch's last value, from any contents `V`: the vertex update of what `V` holds at region 0's first
    output, at region 1's output and at five arguments. -/
theorem ops2_result (V : Valuation τ sig (Elt F)) : StableHlo.after hostOps2 V (Proc.devRef .tc main_v45)
    = Cert.Shared.vertexUpdate (V (Proc.devRef .tc main_v0_0)) (V (Proc.devRef .tc main_v23)) (V (Proc.devRef .tc main_arg2))
        (V (Proc.devRef .tc main_arg3)) (V (Proc.devRef .tc main_arg4)) (V (Proc.devRef .tc main_arg12)) (V (Proc.devRef .tc main_arg13)) := by
  after_results_simp
  unfold Cert.Shared.vertexUpdate
  rfl

/-! ## The edge result -/

/-- The second stretch does not write the edge result, and region 1 only reads it (its input window 0): the last
    boundary holds there what the first stretch left. -/
theorem edges_kept (c : Dev nD) : W4 m ρ c (Proc.devRef .tc main_v22) = V2 m ρ c main_v22 :=
  calc W4 m ρ c (Proc.devRef .tc main_v22)
    _ = W3 m ρ c (Proc.devRef .tc main_v22) := StableHlo.after_of_forall_not_mem (b := Proc.devRef .tc main_v22) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V2 m ρ c main_v22 := (W3_arr m ρ c 0).trans (((dat1 (V2 m ρ) c).arrAt_in 0 rfl _).trans (A_eq1 (V2 m ρ) c 0))

/-- Region 0 leaves an argument it has no window on as launched. -/
theorem exit0_arg (c : Dev nD) (b : Ref sig .tc) (hb : ∀ w, Pipeline.arrRef spec0 w ≠ b) :
    W1 m ρ c (Proc.devRef .tc b) = m ((c.tc : Thread nD τ).loc b) :=
  (W1_of_ne m ρ c b hb).trans rfl

/-- What the first stretch leaves at the edge result: the edge update of region 0's second output (its write-backs
    folded over the whole grid) and of the launch contents of the six arguments the stretch reads. -/
theorem edges_eq (c : Dev nD) : V2 m ρ c main_v22
    = Cert.Shared.edgeUpdate ((dat0 (V0 m ρ) c).arrAt 5 cfg0.N) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg11)) (m ((c.tc : Thread nD τ).loc main_arg14)) := by
  show StableHlo.after hostOps1 (W1 m ρ c) (Proc.devRef .tc main_v22) = _
  rw [ops1_result, W1_arr m ρ c 5, exit0_arg m ρ c main_arg1 (by decide), exit0_arg m ρ c main_arg2 (by decide),
    exit0_arg m ρ c main_arg3 (by decide), exit0_arg m ρ c main_arg4 (by decide), exit0_arg m ρ c main_arg11 (by decide),
    exit0_arg m ρ c main_arg14 (by decide)]

/-! ## Region 1's entry contents at its argument windows -/

/-- The first stretch writes no argument and region 0 has no window on these three: region 1 is entered with them
    as launched. -/
theorem entry1_arg6 (c : Dev nD) : V2 m ρ c main_arg6 = m ((c.tc : Thread nD τ).loc main_arg6) :=
  calc V2 m ρ c main_arg6
    _ = W1 m ρ c (Proc.devRef .tc main_arg6) := StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg6) := W1_of_ne m ρ c main_arg6 (by decide)
    _ = m ((c.tc : Thread nD τ).loc main_arg6) := rfl
theorem entry1_arg8 (c : Dev nD) : V2 m ρ c main_arg8 = m ((c.tc : Thread nD τ).loc main_arg8) :=
  calc V2 m ρ c main_arg8
    _ = W1 m ρ c (Proc.devRef .tc main_arg8) := StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg8) := W1_of_ne m ρ c main_arg8 (by decide)
    _ = m ((c.tc : Thread nD τ).loc main_arg8) := rfl
theorem entry1_arg10 (c : Dev nD) : V2 m ρ c main_arg10 = m ((c.tc : Thread nD τ).loc main_arg10) :=
  calc V2 m ρ c main_arg10
    _ = W1 m ρ c (Proc.devRef .tc main_arg10) := StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg10) := W1_of_ne m ρ c main_arg10 (by decide)
    _ = m ((c.tc : Thread nD τ).loc main_arg10) := rfl

/-! ## The vertex result -/

/-- Region 1's exit contents at an argument the second stretch reads: the last boundary's contents there (the second
    stretch writes no argument), which are the launch contents. -/
theorem exit1_arg2 (c : Dev nD) : W3 m ρ c (Proc.devRef .tc main_arg2) = m ((c.tc : Thread nD τ).loc main_arg2) :=
  (show W4 m ρ c (Proc.devRef .tc main_arg2) = W3 m ρ c (Proc.devRef .tc main_arg2) from
    StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans (W4_main_arg2 m ρ c)
theorem exit1_arg3 (c : Dev nD) : W3 m ρ c (Proc.devRef .tc main_arg3) = m ((c.tc : Thread nD τ).loc main_arg3) :=
  (show W4 m ρ c (Proc.devRef .tc main_arg3) = W3 m ρ c (Proc.devRef .tc main_arg3) from
    StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans (W4_main_arg3 m ρ c)
theorem exit1_arg4 (c : Dev nD) : W3 m ρ c (Proc.devRef .tc main_arg4) = m ((c.tc : Thread nD τ).loc main_arg4) :=
  (show W4 m ρ c (Proc.devRef .tc main_arg4) = W3 m ρ c (Proc.devRef .tc main_arg4) from
    StableHlo.after_of_forall_not_mem (b := Proc.devRef .tc main_arg4) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans (W4_main_arg4 m ρ c)
theorem exit1_arg12 (c : Dev nD) : W3 m ρ c (Proc.devRef .tc main_arg12) = m ((c.tc : Thread nD τ).loc main_arg12) :=
  (show W4 m ρ c (Proc.devRef .tc main_arg12) = W3 m ρ c (Proc.devRef .tc main_arg12) from
    StableHlo.after_of_forall_not_mem (b := Proc.devRef .tc main_arg12) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans (W4_main_arg12 m ρ c)
theorem exit1_arg13 (c : Dev nD) : W3 m ρ c (Proc.devRef .tc main_arg13) = m ((c.tc : Thread nD τ).loc main_arg13) :=
  (show W4 m ρ c (Proc.devRef .tc main_arg13) = W3 m ρ c (Proc.devRef .tc main_arg13) from
    StableHlo.after_of_forall_not_mem (b := Proc.devRef .tc main_arg13) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans (W4_main_arg13 m ρ c)

/-- Region 1's exit contents at region 0's first output: region 1 has no window on it, the first stretch does not
    write it, and region 0 leaves there its write-backs folded over the whole grid. -/
theorem exit1_v0_0 (c : Dev nD) : W3 m ρ c (Proc.devRef .tc main_v0_0) = (dat0 (V0 m ρ) c).arrAt 4 cfg0.N :=
  calc W3 m ρ c (Proc.devRef .tc main_v0_0)
    _ = W2 m ρ c (Proc.devRef .tc main_v0_0) := W3_of_ne m ρ c main_v0_0 (by decide)
    _ = W1 m ρ c (Proc.devRef .tc main_v0_0) := StableHlo.after_of_forall_not_mem (b := Proc.devRef .tc main_v0_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V0 m ρ) c).arrAt 4 cfg0.N := W1_arr m ρ c 4

/-- What the second stretch leaves at the vertex result: the vertex update of region 0's first output, of region 1's
    output (each with its write-backs folded over the whole grid) and of the launch contents of the five arguments the
    stretch reads. -/
theorem vertices_eq (c : Dev nD) : W4 m ρ c (Proc.devRef .tc main_v45)
    = Cert.Shared.vertexUpdate ((dat0 (V0 m ρ) c).arrAt 4 cfg0.N) ((dat1 (V2 m ρ) c).arrAt 4 cfg1.N) (m ((c.tc : Thread nD τ).loc main_arg2))
        (m ((c.tc : Thread nD τ).loc main_arg3)) (m ((c.tc : Thread nD τ).loc main_arg4)) (m ((c.tc : Thread nD τ).loc main_arg12))
        (m ((c.tc : Thread nD τ).loc main_arg13)) := by
  show StableHlo.after hostOps2 (W3 m ρ c) (Proc.devRef .tc main_v45) = _
  rw [ops2_result, exit1_v0_0, W3_arr m ρ c 4, exit1_arg2, exit1_arg3, exit1_arg4, exit1_arg12, exit1_arg13]

end Cert.KernelIdeal.HostChains

end
-- ==== Proof.BlockValue.lean ====
/-
  Both kernel bodies at an index of their [2000, 512] block. Each body multiplies a [2000, 512] block of rows by a
  [512, 512] matrix on the matrix unit (operands narrowed to bf16 and the product accumulated from zero in f32), adds a
  bias row, clamps below at zero and scales every row by that row's weight; the first kernel also stores the rows
  themselves scaled by the weight. Over the extended reals the narrowing is the identity and the product into a zero
  accumulator is the plain sum over the contracted axis, so at row p and column q

      message block (p, q) = max (∑ k, x (p, k) · w (k, q) + b q) 0 · s (p, 0)
      scaled block  (p, q) = x (p, q) · s (p, 0).
-/
import proofs.«172283_j89988154785842_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.TcCoe

/-! ## Where an entry of the block reads its operands -/

/-- Row `j 0` of the left operand at the contracted position `k`. -/
abbrev lrow (j : S2000x512.Idx) (k : Fin 512) : S2000x512.Idx := fun a => match a with
  | ⟨0, _⟩ => ⟨(j 0).val, (j 0).isLt⟩
  | ⟨1, _⟩ => ⟨k.val, k.isLt⟩
/-- Column `j 1` of the right operand at the contracted position `k`. -/
abbrev rcol (j : S2000x512.Idx) (k : Fin 512) : S512x512.Idx := fun a => match a with
  | ⟨0, _⟩ => ⟨k.val, k.isLt⟩
  | ⟨1, _⟩ => ⟨(j 1).val, (j 1).isLt⟩
/-- The bias entry of column `j 1`. -/
abbrev lane (j : S2000x512.Idx) : S512.Idx := fun a => match a with
  | ⟨0, _⟩ => ⟨(j 1).val, (j 1).isLt⟩
/-- The same as a one-row matrix. -/
abbrev laneRow (j : S2000x512.Idx) : S1x512.Idx := fun a => match a with
  | ⟨0, _⟩ => ⟨0, Nat.one_pos⟩
  | ⟨1, _⟩ => ⟨(j 1).val, (j 1).isLt⟩
/-- The weight of row `j 0`. -/
abbrev rowHead (j : S2000x512.Idx) : S2000x1.Idx := fun a => match a with
  | ⟨0, _⟩ => ⟨(j 0).val, (j 0).isLt⟩
  | ⟨1, _⟩ => ⟨0, Nat.one_pos⟩

/-! ## The matrix product: rows times columns -/

theorem lhs_axis0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_axis1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhs_axis0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhs_axis1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The block product accumulated from zero, at `(p, q)`, is `∑ k, l (p, k) · r (k, q)`: the one contracted axis of
    extent 512 re-indexed by its position. -/
theorem matmul_at {φ₁ φ₂ : FTy} (l : FVec Ideal S2000x512 φ₁) (r : FVec Ideal S512x512 φ₂) (j : S2000x512.Idx) :
    matmul dot_S2000x512_S512x512_S2000x512_1_0_0_1_n_n none l r (constant S2000x512 .f32 0x00000000#32) j
      = ∑ k : Fin 512, l (lrow j k) * r (rcol j k) := by
  simp only [matmul]
  rw [Ideal.matmul_constant_zero_apply, ← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx j ((ValueIdx.contrEquiv1 dot_S2000x512_S512x512_S2000x512_1_0_0_1_n_n 512 rfl rfl).symm k) = lrow j k := funext fun a => Fin.ext (by
    match a with
    | ⟨0, _⟩ => exact lhs_axis0 _ _
    | ⟨1, _⟩ => exact (lhs_axis1 _ _).trans hk)
  have er : dot_S2000x512_S512x512_S2000x512_1_0_0_1_n_n.rhsIdx j ((ValueIdx.contrEquiv1 dot_S2000x512_S512x512_S2000x512_1_0_0_1_n_n 512 rfl rfl).symm k) = rcol j k := funext fun a => Fin.ext (by
    match a with
    | ⟨0, _⟩ => exact (rhs_axis0 _ _).trans hk
    | ⟨1, _⟩ => exact rhs_axis1 _ _)
  rw [el, er]

/-! ## The two broadcasts -/

/-- The bias vector as a one-row matrix repeated down the block reads, at `(p, q)`, the bias at `q`. -/
theorem bias_at {α : Type} (b : S512.Idx → α) (j : S2000x512.Idx) :
    broadcastTo S2000x512 (shapeCast S1x512 b shapeCasts_S512_S1x512) broadcasts_S1x512_S2000x512 j = b (lane j) := by
  refine (broadcastTo_apply _ broadcasts_S1x512_S2000x512 j (laneRow j) fun a => ?_).trans
    (shapeCast_apply b shapeCasts_S512_S1x512 (laneRow j) (lane j) ?_)
  · match a with
    | ⟨0, _⟩ => show 0 = if (1 : Nat) = 1 then 0 else (j 0).val; rw [if_pos rfl]
    | ⟨1, _⟩ => show (j 1).val = if (512 : Nat) = 1 then 0 else (j 1).val; rw [if_neg (by decide)]
  · rw [Shape.rowMajor_val_two, Shape.rowMajor_val_one]
    show (j 1).val = 0 * 512 + (j 1).val
    rw [Nat.zero_mul, Nat.zero_add]

/-- The weight column repeated along the rows reads, at `(p, q)`, the weight of row `p`. -/
theorem weight_at {α : Type} (s : S2000x1.Idx → α) (j : S2000x512.Idx) :
    broadcastTo S2000x512 s broadcasts_S2000x1_S2000x512 j = s (rowHead j) := by
  refine broadcastTo_apply s broadcasts_S2000x1_S2000x512 j (rowHead j) fun a => ?_
  match a with
  | ⟨0, _⟩ => show (j 0).val = if (2000 : Nat) = 1 then 0 else (j 0).val; rw [if_neg (by decide)]
  | ⟨1, _⟩ => show 0 = if (1 : Nat) = 1 then 0 else (j 1).val; rw [if_pos rfl]

/-! ## The payloads -/

/-- The first kernel's first store: the rows, each scaled by its weight. -/
theorem scaled_at (x : Vec Ideal S2000x512 .f32) (s : Vec Ideal S2000x1 .f32) (j : S2000x512.Idx) :
    k0_pay1 (F := Ideal) x s j = FloatOps.mulf (x j) (s (rowHead j)) := by
  show FloatOps.mulf (x j) ((broadcastTo S2000x512 s broadcasts_S2000x1_S2000x512 : FVec Ideal S2000x512 .f32) j) = _
  rw [weight_at]

/-- The first kernel's second store: the message block. -/
theorem message0_at (x : Vec Ideal S2000x512 .f32) (w : Vec Ideal S512x512 .f32) (b : Vec Ideal S512 .f32) (s : Vec Ideal S2000x1 .f32)
    (j : S2000x512.Idx) :
    k0_pay2 (F := Ideal) x w b s j
      = FloatOps.mulf (FloatOps.maximumf (FloatOps.addf (∑ k : Fin 512, x (lrow j k) * w (rcol j k)) (b (lane j)))
          (FloatOps.ofBits .f32 0x00000000#32)) (s (rowHead j)) := by
  show FloatOps.mulf (FloatOps.maximumf (FloatOps.addf
      ((matmul dot_S2000x512_S512x512_S2000x512_1_0_0_1_n_n none (truncf .bf16 x bitsLt_bf16_f32) (truncf .bf16 w bitsLt_bf16_f32) (constant S2000x512 .f32 0x00000000#32) : FVec Ideal S2000x512 .f32) j)
      ((broadcastTo S2000x512 (shapeCast S1x512 b shapeCasts_S512_S1x512) broadcasts_S1x512_S2000x512 : FVec Ideal S2000x512 .f32) j))
      (FloatOps.ofBits .f32 0x00000000#32)) ((broadcastTo S2000x512 s broadcasts_S2000x1_S2000x512 : FVec Ideal S2000x512 .f32) j) = _
  rw [matmul_at, bias_at, weight_at]
  rfl

/-- The second kernel's store: the same message block (its rows pass through a cast to their own shape first). -/
theorem message1_at (x : Vec Ideal S2000x512 .f32) (w : Vec Ideal S512x512 .f32) (b : Vec Ideal S512 .f32) (s : Vec Ideal S2000x1 .f32)
    (j : S2000x512.Idx) :
    k1_pay1 (F := Ideal) x w b s j
      = FloatOps.mulf (FloatOps.maximumf (FloatOps.addf (∑ k : Fin 512, x (lrow j k) * w (rcol j k)) (b (lane j)))
          (FloatOps.ofBits .f32 0x00000000#32)) (s (rowHead j)) := by
  show FloatOps.mulf (FloatOps.maximumf (FloatOps.addf
      ((matmul dot_S2000x512_S512x512_S2000x512_1_0_0_1_n_n none (truncf .bf16 (shapeCast S2000x512 x shapeCasts_S2000x512_S2000x512 : FVec Ideal S2000x512 .f32) bitsLt_bf16_f32) (truncf .bf16 w bitsLt_bf16_f32) (constant S2000x512 .f32 0x00000000#32) : FVec Ideal S2000x512 .f32) j)
      ((broadcastTo S2000x512 (shapeCast S1x512 b shapeCasts_S512_S1x512) broadcasts_S1x512_S2000x512 : FVec Ideal S2000x512 .f32) j))
      (FloatOps.ofBits .f32 0x00000000#32)) ((broadcastTo S2000x512 s broadcasts_S2000x1_S2000x512 : FVec Ideal S2000x512 .f32) j) = _
  rw [shapeCast_self, matmul_at, bias_at, weight_at]
  rfl

end Cert.KernelIdeal.Block

end
-- ==== Proof.Region0Value.lean ====
/-
  What the first kernel leaves in its two result arrays. Its grid has 25 points; point t works on rows
  2000·t … 2000·t + 1999 of the vertex array and of the weight column, and on the whole weight matrix and bias, and writes
  the same rows of both results. So block t of each result is block t of ONE function of the whole arrays,

      scaled   (r, q) = v (r, q) · s (r, 0)
      messages (r, q) = max (∑ k, v (r, k) · W (k, q) + b q) 0 · s (r, 0),

  which are the reference's two products of the vertex stage, entry by entry; the 25 blocks tile the 50000 rows, so the
  arrays end holding those functions.
-/
import proofs.«172283_j89988154785842_1_alg».proof.Proof.Gen.KernelIdeal.Frame
import proofs.«172283_j89988154785842_1_alg».proof.Proof.Gen.ReferenceIdeal.Read
import proofs.«172283_j89988154785842_1_alg».proof.Proof.BlockValue

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)

-- the arrays as the region finds them
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index of every window at point t: the row windows move with t, the matrix and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 25 := Nat.lt_of_lt_of_eq t.isLt N_0

/-! ## Where a block's entry sits in its array -/

/-- Entry (p, q) of point t's block of a [50000, 512] array is the array's entry (2000·t + p, q). -/
abbrev grow (t : Fin cfg0.N) (y : S2000x512.Idx) : S50000x512.Idx := fun a => match a with
  | ⟨0, _⟩ => ⟨t.val * 2000 + (y 0).val, by have := t_lt t; have h : (y 0).val < 2000 := (y 0).isLt; show _ < 50000; omega⟩
  | ⟨1, _⟩ => ⟨(y 1).val, (y 1).isLt⟩
/-- Entry (p, 0) of point t's block of the weight column is the column's entry (2000·t + p, 0). -/
abbrev gcol (t : Fin cfg0.N) (y : S2000x1.Idx) : S50000x1.Idx := fun a => match a with
  | ⟨0, _⟩ => ⟨t.val * 2000 + (y 0).val, by have := t_lt t; have h : (y 0).val < 2000 := (y 0).isLt; show _ < 50000; omega⟩
  | ⟨1, _⟩ => ⟨(y 1).val, (y 1).isLt⟩

theorem emb0 (t : Fin cfg0.N) (y : S2000x512.Idx) : ((cfg0.win 0).blk t).view.emb y = grow t y := by
  obtain ⟨e0, e1, -⟩ := idx_facts t
  funext a; apply Fin.ext
  match a with
  | ⟨0, _⟩ => show win0_0.index t (0 : Fin 2) * 2000 + 1 * (y 0).val = t.val * 2000 + (y 0).val; rw [e0]; omega
  | ⟨1, _⟩ => show win0_0.index t (1 : Fin 2) * 512 + 1 * (y 1).val = (y 1).val; rw [e1]; omega
theorem emb1 (t : Fin cfg0.N) (y : S512x512.Idx) : ((cfg0.win 1).blk t).view.emb y = y := by
  obtain ⟨-, -, e0, e1, -⟩ := idx_facts t
  funext a; apply Fin.ext
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega
theorem emb2 (t : Fin cfg0.N) (y : S512.Idx) : ((cfg0.win 2).blk t).view.emb y = y := by
  obtain ⟨-, -, -, -, e0, -⟩ := idx_facts t
  funext a; apply Fin.ext
  match a with
  | ⟨0, _⟩ => show win0_2.index t (0 : Fin 1) * 512 + 1 * (y 0).val = (y 0).val; rw [e0]; omega
theorem emb3 (t : Fin cfg0.N) (y : S2000x1.Idx) : ((cfg0.win 3).blk t).view.emb y = gcol t y := by
  obtain ⟨-, -, -, -, -, e0, e1, -⟩ := idx_facts t
  funext a; apply Fin.ext
  match a with
  | ⟨0, _⟩ => show win0_3.index t (0 : Fin 2) * 2000 + 1 * (y 0).val = t.val * 2000 + (y 0).val; rw [e0]; omega
  | ⟨1, _⟩ => show win0_3.index t (1 : Fin 2) * 1 + 1 * (y 1).val = (y 1).val; rw [e1]; omega
theorem emb4 (t : Fin cfg0.N) (y : S2000x512.Idx) : ((cfg0.win 4).blk t).view.emb y = grow t y := by
  obtain ⟨-, -, -, -, -, -, -, e0, e1, -⟩ := idx_facts t
  funext a; apply Fin.ext
  match a with
  | ⟨0, _⟩ => show win0_4.index t (0 : Fin 2) * 2000 + 1 * (y 0).val = t.val * 2000 + (y 0).val; rw [e0]; omega
  | ⟨1, _⟩ => show win0_4.index t (1 : Fin 2) * 512 + 1 * (y 1).val = (y 1).val; rw [e1]; omega
theorem emb5 (t : Fin cfg0.N) (y : S2000x512.Idx) : ((cfg0.win 5).blk t).view.emb y = grow t y := by
  obtain ⟨-, -, -, -, -, -, -, -, -, e0, e1⟩ := idx_facts t
  funext a; apply Fin.ext
  match a with
  | ⟨0, _⟩ => show win0_5.index t (0 : Fin 2) * 2000 + 1 * (y 0).val = t.val * 2000 + (y 0).val; rw [e0]; omega
  | ⟨1, _⟩ => show win0_5.index t (1 : Fin 2) * 512 + 1 * (y 1).val = (y 1).val; rw [e1]; omega

/-! ## The input blocks, read off the arrays -/

theorem rows_blk (c : Dev nD) (t : Fin cfg0.N) (y : S2000x512.Idx) : iblk0 V c 0 t y = V c main_arg0 (grow t y) := by
  show V c main_arg0 (((cfg0.win 0).blk t).view.emb y) = _
  rw [emb0]
theorem mat_blk (c : Dev nD) (t : Fin cfg0.N) (y : S512x512.Idx) : iblk0 V c 1 t y = V c main_arg5 y := by
  show V c main_arg5 (((cfg0.win 1).blk t).view.emb y) = _
  rw [emb1]
theorem bias_blk (c : Dev nD) (t : Fin cfg0.N) (y : S512.Idx) : iblk0 V c 2 t y = V c main_arg7 y := by
  show V c main_arg7 (((cfg0.win 2).blk t).view.emb y) = _
  rw [emb2]
theorem weight_blk (c : Dev nD) (t : Fin cfg0.N) (y : S2000x1.Idx) : iblk0 V c 3 t y = V c main_arg9 (gcol t y) := by
  show V c main_arg9 (((cfg0.win 3).blk t).view.emb y) = _
  rw [emb3]

/-! ## The reference's operand positions at a block's entry -/

open Cert.ReferenceIdeal.Read in
theorem lrow_grow (t : Fin cfg0.N) (j : S2000x512.Idx) (k : Fin 512) : grow t (Block.lrow j k) = lidx_main_v0 (grow t j) k :=
  funext fun a => Fin.ext (by match a with | ⟨0, _⟩ => rfl | ⟨1, _⟩ => rfl)
open Cert.ReferenceIdeal.Read in
theorem rcol_grow (t : Fin cfg0.N) (j : S2000x512.Idx) (k : Fin 512) : Block.rcol j k = ridx_main_v0 (grow t j) k :=
  funext fun a => Fin.ext (by match a with | ⟨0, _⟩ => rfl | ⟨1, _⟩ => rfl)
open Cert.ReferenceIdeal.Read in
theorem lane_grow (t : Fin cfg0.N) (j : S2000x512.Idx) : Block.lane j = idx_main_v1 (idx_main_v2 (grow t j)) :=
  funext fun a => Fin.ext (by match a with | ⟨0, _⟩ => rfl)
open Cert.ReferenceIdeal.Read in
theorem head_grow5 (t : Fin cfg0.N) (j : S2000x512.Idx) : gcol t (Block.rowHead j) = idx_main_v5 (grow t j) :=
  funext fun a => Fin.ext (by match a with | ⟨0, _⟩ => rfl | ⟨1, _⟩ => rfl)
open Cert.ReferenceIdeal.Read in
theorem head_grow7 (t : Fin cfg0.N) (j : S2000x512.Idx) : gcol t (Block.rowHead j) = idx_main_v7 (grow t j) :=
  funext fun a => Fin.ext (by match a with | ⟨0, _⟩ => rfl | ⟨1, _⟩ => rfl)

/-! ## The scaled rows -/

open Cert.ReferenceIdeal.Read in
/-- What point t writes back to the first result is block t of `v · s`. -/
theorem flushed4_eq (c : Dev nD) (t : Fin cfg0.N) :
    (dat0 V c).flushed 4 t = ((cfg0.win 4).blk t).view.read (Elt Ideal) (val_main_v6 (F := Ideal) (V c main_arg0) (V c main_arg9)) := by
  show (cfg0.win 4).cut (grid0.coords t) ((dat0 V c).after 4 t) = _
  rw [after0_4]
  unfold out0_4
  rw [View.canon_unit_zero hz2]
  simp only [View.ld_unit_zero (S := S2000x512) hz2, View.ld_unit_zero (S := S2000x1) hz2]
  funext j
  refine (Block.scaled_at (iblk0 V c 0 t) (iblk0 V c 3 t) j).trans ?_
  show _ = val_main_v6 (F := Ideal) (V c main_arg0) (V c main_arg9) (((cfg0.win 4).blk t).view.emb j)
  rw [emb4, val_main_v6_apply, val_main_v5_apply, rows_blk, weight_blk, head_grow5]

/-! ## The messages -/

open Cert.ReferenceIdeal.Read in
/-- What point t writes back to the second result is block t of the message function. -/
theorem flushed5_eq (c : Dev nD) (t : Fin cfg0.N) :
    (dat0 V c).flushed 5 t = ((cfg0.win 5).blk t).view.read (Elt Ideal)
      (val_main_v8 (F := Ideal) (V c main_arg0) (V c main_arg5) (V c main_arg7) (V c main_arg9)) := by
  show (cfg0.win 5).cut (grid0.coords t) ((dat0 V c).after 5 t) = _
  rw [after0_5]
  unfold out0_5
  rw [View.canon_unit_zero hz2]
  simp only [View.ld_unit_zero (S := S2000x512) hz2, View.ld_unit_zero (S := S512x512) hz2, View.ld_unit_zero (S := S512) hz1,
    View.ld_unit_zero (S := S2000x1) hz2]
  funext j
  refine (Block.message0_at (iblk0 V c 0 t) (iblk0 V c 1 t) (iblk0 V c 2 t) (iblk0 V c 3 t) j).trans ?_
  show _ = val_main_v8 (F := Ideal) (V c main_arg0) (V c main_arg5) (V c main_arg7) (V c main_arg9) (((cfg0.win 5).blk t).view.emb j)
  rw [emb5, val_main_v8_apply, val_main_v4_apply, val_main_v3_apply, val_main_v0_apply, val_main_v2_apply, val_main_v1_apply,
    val_main_call0_v0_apply, val_main_call0_cst_apply, val_main_v7_apply, bias_blk, weight_blk]
  simp only [rows_blk, mat_blk, lrow_grow, rcol_grow t j, lane_grow t j, head_grow7 t j]

/-! ## The arrays after the run -/

theorem mem_blk4 (t : Fin cfg0.N) (i : S50000x512.Idx) :
    i ∈ ((cfg0.win 4).blk t).view.set ↔ ∀ a : Fin 2, win0_4.index t a * S2000x512.size a ≤ (i a).val ∧ (i a).val < win0_4.index t a * S2000x512.size a + S2000x512.size a := by
  show i ∈ ((View.whole main_v0_0).slice (win0_4.rect t)).set ↔ _
  rw [View.set_slice_whole, Rect.mem_set_unit]
  exact Iff.rfl
theorem mem_blk5 (t : Fin cfg0.N) (i : S50000x512.Idx) :
    i ∈ ((cfg0.win 5).blk t).view.set ↔ ∀ a : Fin 2, win0_5.index t a * S2000x512.size a ≤ (i a).val ∧ (i a).val < win0_5.index t a * S2000x512.size a + S2000x512.size a := by
  show i ∈ ((View.whole main_v0_1).slice (win0_5.rect t)).set ↔ _
  rw [View.set_slice_whole, Rect.mem_set_unit]
  exact Iff.rfl

/-- The point whose block holds row r is r / 2000. -/
def pointOf (i : S50000x512.Idx) : Fin cfg0.N :=
  ⟨(i 0).val / 2000, Nat.lt_of_lt_of_eq (by have h : (i 0).val < 50000 := (i 0).isLt; omega : (i 0).val / 2000 < 25) N_0.symm⟩

theorem cover4 (i : S50000x512.Idx) : ∃ t : Fin cfg0.N, (cfg0.win 4).flush t = true ∧ i ∈ ((cfg0.win 4).blk t).view.set := by
  refine ⟨pointOf i, flush0_4 _, ?_⟩
  rw [mem_blk4]
  obtain ⟨-, -, -, -, -, -, -, e0, e1, -⟩ := idx_facts (pointOf i)
  have h1 : (i 1).val < 512 := (i 1).isLt
  have hp : (pointOf i).val = (i 0).val / 2000 := rfl
  intro a
  match a with
  | ⟨0, _⟩ => show win0_4.index (pointOf i) (0 : Fin 2) * 2000 ≤ (i 0).val ∧ (i 0).val < win0_4.index (pointOf i) (0 : Fin 2) * 2000 + 2000; rw [e0, hp]; omega
  | ⟨1, _⟩ => show win0_4.index (pointOf i) (1 : Fin 2) * 512 ≤ (i 1).val ∧ (i 1).val < win0_4.index (pointOf i) (1 : Fin 2) * 512 + 512; rw [e1]; omega
theorem cover5 (i : S50000x512.Idx) : ∃ t : Fin cfg0.N, (cfg0.win 5).flush t = true ∧ i ∈ ((cfg0.win 5).blk t).view.set := by
  refine ⟨pointOf i, flush0_5 _, ?_⟩
  rw [mem_blk5]
  obtain ⟨-, -, -, -, -, -, -, -, -, e0, e1⟩ := idx_facts (pointOf i)
  have h1 : (i 1).val < 512 := (i 1).isLt
  have hp : (pointOf i).val = (i 0).val / 2000 := rfl
  intro a
  match a with
  | ⟨0, _⟩ => show win0_5.index (pointOf i) (0 : Fin 2) * 2000 ≤ (i 0).val ∧ (i 0).val < win0_5.index (pointOf i) (0 : Fin 2) * 2000 + 2000; rw [e0, hp]; omega
  | ⟨1, _⟩ => show win0_5.index (pointOf i) (1 : Fin 2) * 512 ≤ (i 1).val ∧ (i 1).val < win0_5.index (pointOf i) (1 : Fin 2) * 512 + 512; rw [e1]; omega

open Cert.ReferenceIdeal.Read in
/-- The first result array ends holding the vertex rows scaled by their weights. -/
theorem scaled_array (c : Dev nD) :
    (dat0 V c).arrAt 4 cfg0.N = val_main_v6 (F := Ideal) (V c main_arg0) (V c main_arg9) :=
  (dat0 V c).arrAt_eq_of_cover 4 _ (fun t _ => flushed4_eq V c t) cover4

open Cert.ReferenceIdeal.Read in
/-- The second result array ends holding the vertex messages. -/
theorem message_array (c : Dev nD) :
    (dat0 V c).arrAt 5 cfg0.N = val_main_v8 (F := Ideal) (V c main_arg0) (V c main_arg5) (V c main_arg7) (V c main_arg9) :=
  (dat0 V c).arrAt_eq_of_cover 5 _ (fun t _ => flushed5_eq V c t) cover5

end Cert.KernelIdeal.Region0

end
-- ==== Proof.Region1Value.lean ====
/-
  What the second kernel leaves in its result array. Its grid has 5 points; point t works on rows
  2000·t … 2000·t + 1999 of the updated edge array and of the edge weight column, and on the whole second weight matrix
  and bias, and writes the same rows of the result. Block t of the result is block t of

      messages (r, q) = max (∑ k, e' (r, k) · W (k, q) + b q) 0 · s (r, 0),

  the reference's edge-to-vertex message, entry by entry, once the edge array the kernel reads is known to be the
  reference's updated edge array; the 5 blocks tile the 10000 rows.
-/
import proofs.«172283_j89988154785842_1_alg».proof.Proof.Gen.KernelIdeal.Frame
import proofs.«172283_j89988154785842_1_alg».proof.Proof.Gen.ReferenceIdeal.Read
import proofs.«172283_j89988154785842_1_alg».proof.Proof.BlockValue

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)

-- the arrays as the region finds them
variable (V : (c : Dev nD) → (b : Ref sig .tc) → Buf (Elt Ideal) ((c : Thread nD τ).loc b))
-- the arrays the reference computes its updated edge array from
variable (x0 : (⟨Cert.ReferenceIdeal.S50000x512, .f32⟩ : BufTy).Contents (Elt Ideal)) (x1 : (⟨Cert.ReferenceIdeal.S10000x512, .f32⟩ : BufTy).Contents (Elt Ideal))
  (x2 x3 x4 : (⟨Cert.ReferenceIdeal.S300000, .i32⟩ : BufTy).Contents (Elt Ideal)) (x5 : (⟨Cert.ReferenceIdeal.S512x512, .f32⟩ : BufTy).Contents (Elt Ideal))
  (x7 : (⟨Cert.ReferenceIdeal.S512, .f32⟩ : BufTy).Contents (Elt Ideal)) (x9 : (⟨Cert.ReferenceIdeal.S50000x1, .f32⟩ : BufTy).Contents (Elt Ideal))
  (x11 : (⟨Cert.ReferenceIdeal.S300000x1, .f32⟩ : BufTy).Contents (Elt Ideal)) (x14 : (⟨Cert.ReferenceIdeal.S10000x1, .f32⟩ : BufTy).Contents (Elt Ideal))

theorem hz2 : (![0, 0] : Fin 2 → Nat) = fun _ => 0 := funext fun a => by fin_cases a <;> rfl
theorem hz1 : (![0] : Fin 1 → Nat) = fun _ => 0 := funext fun a => by fin_cases a; rfl

/-- The block index of every window at point t: the row windows move with t, the matrix and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem t_lt (t : Fin cfg1.N) : t.val < 5 := Nat.lt_of_lt_of_eq t.isLt N_1

/-! ## Where a block's entry sits in its array -/

/-- Entry (p, q) of point t's block of a [10000, 512] array is the array's entry (2000·t + p, q). -/
abbrev grow (t : Fin cfg1.N) (y : S2000x512.Idx) : S10000x512.Idx := fun a => match a with
  | ⟨0, _⟩ => ⟨t.val * 2000 + (y 0).val, by have := t_lt t; have h : (y 0).val < 2000 := (y 0).isLt; show _ < 10000; omega⟩
  | ⟨1, _⟩ => ⟨(y 1).val, (y 1).isLt⟩
/-- Entry (p, 0) of point t's block of the weight column is the column's entry (2000·t + p, 0). -/
abbrev gcol (t : Fin cfg1.N) (y : S2000x1.Idx) : S10000x1.Idx := fun a => match a with
  | ⟨0, _⟩ => ⟨t.val * 2000 + (y 0).val, by have := t_lt t; have h : (y 0).val < 2000 := (y 0).isLt; show _ < 10000; omega⟩
  | ⟨1, _⟩ => ⟨(y 1).val, (y 1).isLt⟩

theorem emb0 (t : Fin cfg1.N) (y : S2000x512.Idx) : ((cfg1.win 0).blk t).view.emb y = grow t y := by
  obtain ⟨e0, e1, -⟩ := idx_facts t
  funext a; apply Fin.ext
  match a with
  | ⟨0, _⟩ => show win1_0.index t (0 : Fin 2) * 2000 + 1 * (y 0).val = t.val * 2000 + (y 0).val; rw [e0]; omega
  | ⟨1, _⟩ => show win1_0.index t (1 : Fin 2) * 512 + 1 * (y 1).val = (y 1).val; rw [e1]; omega
theorem emb1 (t : Fin cfg1.N) (y : S512x512.Idx) : ((cfg1.win 1).blk t).view.emb y = y := by
  obtain ⟨-, -, e0, e1, -⟩ := idx_facts t
  funext a; apply Fin.ext
  match a with
  | ⟨0, _⟩ => show win1_1.index t (0 : Fin 2) * 512 + 1 * (y 0).val = (y 0).val; rw [e0]; omega
  | ⟨1, _⟩ => show win1_1.index t (1 : Fin 2) * 512 + 1 * (y 1).val = (y 1).val; rw [e1]; omega
theorem emb2 (t : Fin cfg1.N) (y : S512.Idx) : ((cfg1.win 2).blk t).view.emb y = y := by
  obtain ⟨-, -, -, -, e0, -⟩ := idx_facts t
  funext a; apply Fin.ext
  match a with
  | ⟨0, _⟩ => show win1_2.index t (0 : Fin 1) * 512 + 1 * (y 0).val = (y 0).val; rw [e0]; omega
theorem emb3 (t : Fin cfg1.N) (y : S2000x1.Idx) : ((cfg1.win 3).blk t).view.emb y = gcol t y := by
  obtain ⟨-, -, -, -, -, e0, e1, -⟩ := idx_facts t
  funext a; apply Fin.ext
  match a with
  | ⟨0, _⟩ => show win1_3.index t (0 : Fin 2) * 2000 + 1 * (y 0).val = t.val * 2000 + (y 0).val; rw [e0]; omega
  | ⟨1, _⟩ => show win1_3.index t (1 : Fin 2) * 1 + 1 * (y 1).val = (y 1).val; rw [e1]; omega
theorem emb4 (t : Fin cfg1.N) (y : S2000x512.Idx) : ((cfg1.win 4).blk t).view.emb y = grow t y := by
  obtain ⟨-, -, -, -, -, -, -, e0, e1⟩ := idx_facts t
  funext a; apply Fin.ext
  match a with
  | ⟨0, _⟩ => show win1_4.index t (0 : Fin 2) * 2000 + 1 * (y 0).val = t.val * 2000 + (y 0).val; rw [e0]; omega
  | ⟨1, _⟩ => show win1_4.index t (1 : Fin 2) * 512 + 1 * (y 1).val = (y 1).val; rw [e1]; omega

/-! ## The input blocks, read off the arrays -/

theorem rows_blk (c : Dev nD) (t : Fin cfg1.N) (y : S2000x512.Idx) : iblk1 V c 0 t y = V c main_v22 (grow t y) := by
  show V c main_v22 (((cfg1.win 0).blk t).view.emb y) = _
  rw [emb0]
theorem mat_blk (c : Dev nD) (t : Fin cfg1.N) (y : S512x512.Idx) : iblk1 V c 1 t y = V c main_arg6 y := by
  show V c main_arg6 (((cfg1.win 1).blk t).view.emb y) = _
  rw [emb1]
theorem bias_blk (c : Dev nD) (t : Fin cfg1.N) (y : S512.Idx) : iblk1 V c 2 t y = V c main_arg8 y := by
  show V c main_arg8 (((cfg1.win 2).blk t).view.emb y) = _
  rw [emb2]
theorem weight_blk (c : Dev nD) (t : Fin cfg1.N) (y : S2000x1.Idx) : iblk1 V c 3 t y = V c main_arg10 (gcol t y) := by
  show V c main_arg10 (((cfg1.win 3).blk t).view.emb y) = _
  rw [emb3]

/-! ## The reference's operand positions at a block's entry -/

open Cert.ReferenceIdeal.Read in
theorem lrow_grow (t : Fin cfg1.N) (j : S2000x512.Idx) (k : Fin 512) : grow t (Block.lrow j k) = lidx_main_v31 (grow t j) k :=
  funext fun a => Fin.ext (by match a with | ⟨0, _⟩ => rfl | ⟨1, _⟩ => rfl)
open Cert.ReferenceIdeal.Read in
theorem rcol_grow (t : Fin cfg1.N) (j : S2000x512.Idx) (k : Fin 512) : Block.rcol j k = ridx_main_v31 (grow t j) k :=
  funext fun a => Fin.ext (by match a with | ⟨0, _⟩ => rfl | ⟨1, _⟩ => rfl)
open Cert.ReferenceIdeal.Read in
theorem lane_grow (t : Fin cfg1.N) (j : S2000x512.Idx) : Block.lane j = idx_main_v32 (idx_main_v33 (grow t j)) :=
  funext fun a => Fin.ext (by match a with | ⟨0, _⟩ => rfl)
open Cert.ReferenceIdeal.Read in
theorem head_grow (t : Fin cfg1.N) (j : S2000x512.Idx) : gcol t (Block.rowHead j) = idx_main_v36 (grow t j) :=
  funext fun a => Fin.ext (by match a with | ⟨0, _⟩ => rfl | ⟨1, _⟩ => rfl)

/-! ## The messages -/

open Cert.ReferenceIdeal.Read in
/-- What point t writes back is block t of the message function of the updated edge array. -/
theorem flushed4_eq (c : Dev nD) (hE : V c main_v22 = val_main_v30 (F := Ideal) x0 x1 x2 x3 x4 x5 x7 x9 x11 x14) (t : Fin cfg1.N) :
    (dat1 V c).flushed 4 t = ((cfg1.win 4).blk t).view.read (Elt Ideal)
      (val_main_v37 (F := Ideal) x0 x1 x2 x3 x4 x5 (V c main_arg6) x7 (V c main_arg8) x9 (V c main_arg10) x11 x14) := by
  show (cfg1.win 4).cut (grid1.coords t) ((dat1 V c).after 4 t) = _
  rw [after1_4]
  unfold out1_4
  rw [View.canon_unit_zero hz2]
  simp only [View.ld_unit_zero (S := S2000x512) hz2, View.ld_unit_zero (S := S512x512) hz2, View.ld_unit_zero (S := S512) hz1,
    View.ld_unit_zero (S := S2000x1) hz2]
  funext j
  refine (Block.message1_at (iblk1 V c 0 t) (iblk1 V c 1 t) (iblk1 V c 2 t) (iblk1 V c 3 t) j).trans ?_
  show _ = val_main_v37 (F := Ideal) x0 x1 x2 x3 x4 x5 (V c main_arg6) x7 (V c main_arg8) x9 (V c main_arg10) x11 x14 (((cfg1.win 4).blk t).view.emb j)
  rw [emb4, val_main_v37_apply, val_main_v35_apply, val_main_v34_apply, val_main_v31_apply, val_main_v33_apply, val_main_v32_apply,
    val_main_call1_v0_apply, val_main_call1_cst_apply, val_main_v36_apply, bias_blk, weight_blk]
  simp only [rows_blk, mat_blk, hE, lrow_grow, rcol_grow t j, lane_grow t j, head_grow t j]

/-! ## The array after the run -/

theorem mem_blk4 (t : Fin cfg1.N) (i : S10000x512.Idx) :
    i ∈ ((cfg1.win 4).blk t).view.set ↔ ∀ a : Fin 2, win1_4.index t a * S2000x512.size a ≤ (i a).val ∧ (i a).val < win1_4.index t a * S2000x512.size a + S2000x512.size a := by
  show i ∈ ((View.whole main_v23).slice (win1_4.rect t)).set ↔ _
  rw [View.set_slice_whole, Rect.mem_set_unit]
  exact Iff.rfl

/-- The point whose block holds row r is r / 2000. -/
def pointOf (i : S10000x512.Idx) : Fin cfg1.N :=
  ⟨(i 0).val / 2000, Nat.lt_of_lt_of_eq (by have h : (i 0).val < 10000 := (i 0).isLt; omega : (i 0).val / 2000 < 5) N_1.symm⟩

theorem cover4 (i : S10000x512.Idx) : ∃ t : Fin cfg1.N, (cfg1.win 4).flush t = true ∧ i ∈ ((cfg1.win 4).blk t).view.set := by
  refine ⟨pointOf i, flush1_4 _, ?_⟩
  rw [mem_blk4]
  obtain ⟨-, -, -, -, -, -, -, e0, e1⟩ := idx_facts (pointOf i)
  have h1 : (i 1).val < 512 := (i 1).isLt
  have hp : (pointOf i).val = (i 0).val / 2000 := rfl
  intro a
  match a with
  | ⟨0, _⟩ => show win1_4.index (pointOf i) (0 : Fin 2) * 2000 ≤ (i 0).val ∧ (i 0).val < win1_4.index (pointOf i) (0 : Fin 2) * 2000 + 2000; rw [e0, hp]; omega
  | ⟨1, _⟩ => show win1_4.index (pointOf i) (1 : Fin 2) * 512 ≤ (i 1).val ∧ (i 1).val < win1_4.index (pointOf i) (1 : Fin 2) * 512 + 512; rw [e1]; omega

open Cert.ReferenceIdeal.Read in
/-- The result array ends holding the edge messages. -/
theorem message_array (c : Dev nD) (hE : V c main_v22 = val_main_v30 (F := Ideal) x0 x1 x2 x3 x4 x5 x7 x9 x11 x14) :
    (dat1 V c).arrAt 4 cfg1.N
      = val_main_v37 (F := Ideal) x0 x1 x2 x3 x4 x5 (V c main_arg6) x7 (V c main_arg8) x9 (V c main_arg10) x11 x14 :=
  (dat1 V c).arrAt_eq_of_cover 4 _ (fun t _ => flushed4_eq V x0 x1 x2 x3 x4 x5 x7 x9 x11 x14 c hE t) cover4

end Cert.KernelIdeal.Region1

end
-- ==== Proof.RefStages.lean ====
/-
  The reference's two results as the shared updates of its own stages: the updated edge array is the edge update of the
  vertex messages, and the updated vertex array is the vertex update of the scaled vertex rows and of the edge messages
  computed from the updated edge array. Both by unfolding the stages' definitions.
-/
import proofs.«172283_j89988154785842_1_alg».proof.Proof.Gen.ReferenceIdeal.Run
import proofs.«172283_j89988154785842_1_alg».proof.Proof.Gen.ReferenceIdeal.Read
import proofs.«172283_j89988154785842_1_alg».proof.Proof.Chains

noncomputable section

namespace Cert.ReferenceIdeal.Stages

open Cert.ReferenceIdeal Cert.ReferenceIdeal.Gen Cert.ReferenceIdeal.Read Idealize.ShloMosaic Idealize.ShloMosaic.TcCoe

variable {F : FTy → Type} [FloatOps F]
variable (x0 : (⟨S50000x512, .f32⟩ : BufTy).Contents (Elt F)) (x1 : (⟨S10000x512, .f32⟩ : BufTy).Contents (Elt F))
  (x2 x3 x4 : (⟨S300000, .i32⟩ : BufTy).Contents (Elt F)) (x5 x6 : (⟨S512x512, .f32⟩ : BufTy).Contents (Elt F))
  (x7 x8 : (⟨S512, .f32⟩ : BufTy).Contents (Elt F)) (x9 : (⟨S50000x1, .f32⟩ : BufTy).Contents (Elt F))
  (x10 : (⟨S10000x1, .f32⟩ : BufTy).Contents (Elt F)) (x11 x12 : (⟨S300000x1, .f32⟩ : BufTy).Contents (Elt F))
  (x13 : (⟨S50000x1, .f32⟩ : BufTy).Contents (Elt F)) (x14 : (⟨S10000x1, .f32⟩ : BufTy).Contents (Elt F))

/-- The updated edge array: the edge update of the vertex messages. -/
theorem edges_eq : val_main_v30 (F := F) x0 x1 x2 x3 x4 x5 x7 x9 x11 x14
    = Cert.Shared.edgeUpdate (val_main_v8 (F := F) x0 x5 x7 x9) x1 x2 x3 x4 x11 x14 := rfl

/-- The updated vertex array: the vertex update of the scaled rows and of the edge messages. -/
theorem vertices_eq : val_main_v59 (F := F) x0 x1 x2 x3 x4 x5 x6 x7 x8 x9 x10 x11 x12 x13 x14
    = Cert.Shared.vertexUpdate (val_main_v6 (F := F) x0 x9) (val_main_v37 (F := F) x0 x1 x2 x3 x4 x5 x6 x7 x8 x9 x10 x11 x14)
        x2 x3 x4 x12 x13 := rfl

end Cert.ReferenceIdeal.Stages

end
-- ==== Proof.KernelValue.lean ====
/-
  The idealized kernel program's run with its two results NAMED as functions of the launch arrays: the reference's own
  stage functions.

  The program is two pipelined kernels among two stretches of host operations. Its run ends with every buffer at the
  fold of those four segments from the launch memory. Read back at the two results:
    * the edge result is what the first stretch leaves, the edge update of the first kernel's message array; that
      array is the reference's vertex message array (entry by entry the same sums), so the edge result is the
      reference's updated edge array;
    * the second kernel reads exactly that array, so its result is the reference's edge message array;
    * the vertex result is what the second stretch leaves, the vertex update of the first kernel's scaled rows and of
      the second kernel's messages: the reference's updated vertex array.
-/
import proofs.«172283_j89988154785842_1_alg».proof.Proof.KernelRun
import proofs.«172283_j89988154785842_1_alg».proof.Proof.HostChains
import proofs.«172283_j89988154785842_1_alg».proof.Proof.Region0Value
import proofs.«172283_j89988154785842_1_alg».proof.Proof.Region1Value
import proofs.«172283_j89988154785842_1_alg».proof.Proof.RefStages

set_option maxRecDepth 16384

noncomputable section

namespace Cert.KernelIdeal.Value

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (ρ : Dev nD → PrngReg)

/-- The edge result ends holding the reference's updated edge array of the launch arrays. -/
theorem edges (c : Dev nD) : W4 m ρ c (Proc.devRef .tc main_v22)
    = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg14)) := by
  rw [HostChains.edges_kept, HostChains.edges_eq, Region0.message_array (V0 m ρ) c]
  exact (Cert.ReferenceIdeal.Stages.edges_eq (F := Ideal) _ _ _ _ _ _ _ _ _ _).symm

/-- The second kernel is entered with the edge array at the reference's updated edge array. -/
theorem entry_edges (c : Dev nD) : V2 m ρ c main_v22
    = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg14)) :=
  (HostChains.edges_kept m ρ c).symm.trans (edges m ρ c)

/-- The vertex result ends holding the reference's updated vertex array of the launch arrays. -/
theorem vertices (c : Dev nD) : W4 m ρ c (Proc.devRef .tc main_v45)
    = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [HostChains.vertices_eq, Region0.scaled_array (V0 m ρ) c,
    Region1.message_array (V2 m ρ) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg14)) c (entry_edges m ρ c),
    HostChains.entry1_arg6, HostChains.entry1_arg8, HostChains.entry1_arg10]
  exact (Cert.ReferenceIdeal.Stages.vertices_eq (F := Ideal) _ _ _ _ _ _ _ _ _ _ _ _ _ _ _).symm

/-- The run, read: every weakly fair execution ends with the two results at the reference's stage functions of the
    launch arrays, the arguments unchanged. -/
theorem run : θ_run (defs (F := Ideal)) (onTc (τ := τ) (main (F := Ideal))) ⟨m, fun _ => 0, ρ⟩ (fun r => ∀ c : Dev nD,
      r.2.mem ((c.tc : Thread nD τ).loc main_v45) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v22) = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run (defs (F := Ideal)) _ _).mono (fun r h c => ⟨(h c).1.trans (vertices m ρ c), (h c).2.1.trans (edges m ρ c), (h c).2.2⟩)
    (Named.run m ρ)

end Cert.KernelIdeal.Value

end
-- ==== Proof.lean ====
/-
  The certificate of a two-stage message-passing layer on a bipartite incidence structure (50000 vertices, 10000
  edges, 300000 incidences, 512 features), a Pallas implementation against its jnp reference, over the extended reals.

  Both programs compute, from the vertex array v, the edge array e, the incidence lists, two weight matrices with
  biases, per-row weights and per-row normalisers:

      msgV = max (v · W₁ + b₁) 0 · v_weight                     (a row-scaled, clamped matrix product)
      e'   = (e + Σ_{incidences of the edge} msgV[vertex] · w) / e_reg_sum
      msgE = max (e' · W₂ + b₂) 0 · e_weight
      v'   = (v · v_weight + Σ_{incidences of the vertex} msgE[edge] · w') / v_reg_sum

  and return (v', e'). The reference does all of it with host operations. The kernel program computes msgV (with
  v · v_weight beside it) and msgE in two pipelined kernels, 2000 rows per grid point, each a matrix product on the matrix
  unit with operands narrowed to bf16; the gathers, the segment sums and the divisions between and after them are the
  same host operations as the reference's. Over the extended reals the narrowing is the identity and a product accumulated
  from zero is the plain sum over the contracted axis, so each kernel's result array is, entry by entry, the
  reference's stage (Proof/BlockValue, Region0Value, Region1Value); the shared host operations are carried as two
  functions applied to equal arrays and never opened (Proof/Chains, HostChains, RefStages); Proof/KernelValue reads the
  kernel program's run at those functions. No law that needs finite inputs is used: the two sides are the same
  expression, sum for sum.

  The three frames are the generated ones (the reference's is its run with the results dropped); no operation was
  rewritten by the idealization, so there is nothing to preserve.
-/
import proofs.«172283_j89988154785842_1_alg».proof.Defs
import proofs.«172283_j89988154785842_1_alg».proof.Proof.Gen.Kernel
import proofs.«172283_j89988154785842_1_alg».proof.Proof.Gen.Kernel.Skeleton
import proofs.«172283_j89988154785842_1_alg».proof.Proof.Gen.Kernel.Launch
import proofs.«172283_j89988154785842_1_alg».proof.Proof.Gen.Kernel.Points
import proofs.«172283_j89988154785842_1_alg».proof.Proof.Gen.Kernel.Frame
import proofs.«172283_j89988154785842_1_alg».proof.Proof.Gen.KernelIdeal
import proofs.«172283_j89988154785842_1_alg».proof.Proof.Gen.KernelIdeal.Skeleton
import proofs.«172283_j89988154785842_1_alg».proof.Proof.Gen.KernelIdeal.Launch
import proofs.«172283_j89988154785842_1_alg».proof.Proof.Gen.KernelIdeal.Points
import proofs.«172283_j89988154785842_1_alg».proof.Proof.Gen.KernelIdeal.Frame
import proofs.«172283_j89988154785842_1_alg».proof.Proof.Gen.ReferenceIdeal
import proofs.«172283_j89988154785842_1_alg».proof.Proof.Gen.ReferenceIdeal.Run
import proofs.«172283_j89988154785842_1_alg».proof.Proof.Gen.ReferenceIdeal.Read
import proofs.«172283_j89988154785842_1_alg».proof.Proof.Gen.Pre_finite_inputs
import proofs.«172283_j89988154785842_1_alg».proof.Proof.KernelValue
import Idealize.ShloMosaic.Adequacy
import Idealize.ShloMosaic.Init

noncomputable section

namespace Cert.Proof

open Idealize.ShloMosaic Idealize.SL.Sem

/-- The kernel program as printed runs, faults nowhere and leaves its arguments: the generated frame. -/
theorem frame_kernel : Cert.frame_Kernel := fun m ρ _ => Cert.Kernel.Gen.frame m ρ

/-- The same at the extended reals. -/
theorem frame_kernelIdeal : Cert.frame_KernelIdeal := fun m ρ _ => Cert.KernelIdeal.Gen.frame m ρ

/-- The reference is a straight line of host operations: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the updated vertex array and the updated edge array
    at the reference's stage functions of those arguments: the kernel program by its run read back through its two
    kernels and two host stretches, the reference by its own run. -/
theorem algebraic : Cert.algebraic_KernelIdeal_ReferenceIdeal := by
  intro m ρ m' ρ' _ hagree
  refine ⟨_, _, Cert.KernelIdeal.Value.run m ρ, ?_⟩
  refine (θ_run Cert.ReferenceIdeal.defs _ _).mono (fun r h c => ?_) (Cert.ReferenceIdeal.Value.run (F := Ideal) m' ρ')
  obtain ⟨h0, h1, h2, h3, h4, h5, h6, h7, h8, h9, h10, h11, h12, h13, h14⟩ := hagree c
  refine ⟨(h c).1.trans ?_, (h c).2.1.trans ?_, (h c).2.2⟩
  · rw [Cert.ReferenceIdeal.Read.val_main_v59_eq, h0, h1, h2, h3, h4, h5, h6, h7, h8, h9, h10, h11, h12, h13, h14]
  · rw [Cert.ReferenceIdeal.Read.val_main_v30_eq, h0, h1, h2, h3, h4, h5, h7, h9, h11, h14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
